-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S10000x128 .f32) (main_arg1 : FVec F S10000x10000 .f32) (main_arg2 : FVec F S128x256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x256 : Shape := ⟨2, ![128, 256]⟩
abbrev S128x128 : Shape := ⟨2, ![128, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 8
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c0_5 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  reduces_S400x10000_S400 : S400x10000.Reduces [1] S400
  shapeCasts_S400_S400x1 : S400.ShapeCasts S400x1
  broadcasts_S400x1_S400x128 : S400x1.Broadcasts S400x128
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩

abbrev nBuf : Space → Nat
  | .hbm => 18
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S10000x128, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x128, .f32⟩
  | .hbm, ⟨11, _⟩ => ⟨S10000x128, .f32⟩
  | .hbm, ⟨12, _⟩ => ⟨S10000x256, .f32⟩
  | .hbm, ⟨13, _⟩ => ⟨S256x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.BodyValue.lean ====
/-
  What the kernel body leaves in the output block, as a value.

  The body's one store covers the whole 400 x 128 block, so after the body the block holds the store's payload: the
  body's arithmetic applied to the adjacency strip, to the whole feature array, to the 400 feature rows the body reads
  out of that array at the strip's first row, and to the two halves of the transposed weights.
-/
import proofs.«109887_g18622978196112_cont_8to1_1943_11_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The 400 feature rows the body reads out of the whole feature array `x1` at grid coordinate `i`: row r, column k of
    the read is the array at the rectangle's r-th row and k-th column. -/
abbrev selfRows (i : grid0.Coords) (x1 : Vec F S10000x128 .f32) : Vec F S400x128 .f32 :=
  View.ld x1 (Rect.unit (s := S10000x128) (k0_off1 i) S400x128.size (k0_off1_inb i))

/-- After the body the output block is the payload of the body's loads. -/
theorem out_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S128x128 .f32) (h4 : a4.IsWhole) (a5 : Memref sig .tc .vmem S400x128 .f32) (h5 : a5.IsWhole)
    (x0 : Vec F S400x10000 .f32) (x1 : Vec F S10000x128 .f32) (x2 : Vec F S128x128 .f32) (x3 : Vec F S128x128 .f32) :
    out0_A_4 c i a1 h1 a2 h2 a3 h3 a4 h4 a5 h5 x0 x1 x2 x3 = k0_pay1 x0 x1 (selfRows i x1) x2 x3 := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S400x10000) hz, View.ld_unit_zero (S := S10000x128) hz, View.ld_unit_zero (S := S128x128) hz]
  rfl

end Cert.KernelIdeal.Body

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRows.lean ====
/-
  Arrays of n rows and c columns read row by row.

  A reduction along the second axis, read at row p, ranges over the columns k of that row: the source index over the
  reduced index (p) with the coordinate k inserted is (p, k). So a kernel's multi_reduction and the host's reduce
  over axis 1 are, at row p, the sum (the largest, the smallest) of the row's entries x (p, k), k : Fin c.
  A unit-stride slice that drops the first or the last column reads the row shifted or unshifted, and a concatenation
  of fifteen columns of shape [n, 1] along axis 1 reads, at (p, j), column j at (p, 0).
-/
import Idealize.ShloMosaic.Lib.ValueIdx
import Idealize.ShloMosaic.Lib.Pipeline.Value
import Idealize.ShloMosaic.PureOps.Ideal.Laws

noncomputable section

open scoped BigOperators

namespace Idealize.ShloMosaic.Rows

open Idealize.ShloMosaic Idealize.ShloMosaic.ValueIdx

variable {n c : ℕ} {φ : FTy}

/-- Over row p, the source index with column k inserted is (p, k). -/
theorem lift_row (h : (⟨2, ![n, c]⟩ : Shape).Reduces [1] ⟨1, ![n]⟩) (p : Fin n) (k : Fin c) :
    h.lift (ix1 p) k = ix2 p k := by
  funext a
  apply Fin.ext
  show h.liftVal (ix1 p) k.val a = _
  match a with
  | ⟨0, _⟩ => simp [Shape.Reduces.liftVal]
  | ⟨1, _⟩ => simp [Shape.Reduces.liftVal]

/-- A kernel's sum along the columns, at row p. -/
theorem mredAdd_row (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin c, src (ix2 p k) := by
  rw [Ideal.multiReduction_add_single]
  exact Finset.sum_congr rfl fun k _ => congrArg src (lift_row h p k)

/-- A kernel's maximum along the columns, at row p. -/
theorem mredMax_row (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin c)).fold max (Ideal.ofBits φ acc) (fun k => src (ix2 p k)) := by
  rw [Ideal.multiReduction_maximumf_single]
  have e : (src ∘ h.lift (ix1 p)) = fun k : Fin c => src (ix2 p k) := funext fun k => congrArg src (lift_row h p k)
  rw [e]
  rfl

/-- A kernel's minimum along the columns, at row p. -/
theorem mredMin_row (src : FVec Ideal ⟨2, ![n, c]⟩ φ) (acc : BitVec φ.bits)
    (h : (⟨2, ![n, c]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin c)).fold min (Ideal.ofBits φ acc) (fun k => src (ix2 p k)) := by
  rw [multiReduction_minimumf_eq_fold, h.fold_filter_drop_single]
  have e : (src ∘ h.lift (ix1 p)) = fun k : Fin c => src (ix2 p k) := funext fun k => congrArg src (lift_row h p k)
  rw [e]
  rfl

/-- The host's sum along the columns, at row p: the initial value plus the row's sum. -/
theorem hredAdd_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduceAdd x v h' hu (ix1 p) = v (Shape.Idx.first hu) + ∑ k : Fin c, x (ix2 p k) := by
  show Ideal.hostReduceAdd h' x (v (Shape.Idx.first hu)) (ix1 p) = _
  rw [Ideal.hostReduceAdd_single h' h]
  exact congrArg (v (Shape.Idx.first hu) + ·) (Finset.sum_congr rfl fun k _ => congrArg x (lift_row h p k))

/-- The host's maximum along the columns, at row p. -/
theorem hredMax_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.maximumf x v h' hu (ix1 p)
      = (Finset.univ : Finset (Fin c)).fold max (v (Shape.Idx.first hu)) (fun k => x (ix2 p k)) := by
  rw [Host.reduce_eq_fold_single FloatOps.maximumf x v h' h hu]
  have e : (x ∘ h.lift (ix1 p)) = fun k : Fin c => x (ix2 p k) := funext fun k => congrArg x (lift_row h p k)
  rw [e]
  rfl

/-- The host's minimum along the columns, at row p. -/
theorem hredMin_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.minimumf x v h' hu (ix1 p)
      = (Finset.univ : Finset (Fin c)).fold min (v (Shape.Idx.first hu)) (fun k => x (ix2 p k)) := by
  rw [Host.reduce_eq_fold_single FloatOps.minimumf x v h' h hu]
  have e : (x ∘ h.lift (ix1 p)) = fun k : Fin c => x (ix2 p k) := funext fun k => congrArg x (lift_row h p k)
  rw [e]
  rfl

variable {α : Type}

/-- The slice that drops the first column reads the row one to the right. -/
theorem slice_succ (x : (⟨2, ![n, c + 1]⟩ : Shape).Idx → α)
    (h : (⟨2, ![n, c + 1]⟩ : Shape).Slices ![0, 1] ⟨2, ![n, c]⟩) (p : Fin n) (k : Fin c) :
    extractStridedSlice ⟨2, ![n, c]⟩ ![0, 1] x h (ix2 p k) = x (ix2 p k.succ) :=
  extractStridedSlice_apply _ x h _ _ fun a => by
    match a with
    | ⟨0, _⟩ => show p.val = 0 + p.val; omega
    | ⟨1, _⟩ => show k.val + 1 = 1 + k.val; omega

/-- The slice that drops the last column reads the row in place. -/
theorem slice_castSucc (x : (⟨2, ![n, c + 1]⟩ : Shape).Idx → α)
    (h : (⟨2, ![n, c + 1]⟩ : Shape).Slices ![0, 0] ⟨2, ![n, c]⟩) (p : Fin n) (k : Fin c) :
    extractStridedSlice ⟨2, ![n, c]⟩ ![0, 0] x h (ix2 p k) = x (ix2 p k.castSucc) :=
  extractStridedSlice_apply _ x h _ _ fun a => by
    match a with
    | ⟨0, _⟩ => show p.val = 0 + p.val; omega
    | ⟨1, _⟩ => show k.val = 0 + k.val; omega

/-- Fifteen columns [n, 1] laid side by side: entry (p, j) is column j at (p, 0). -/
theorem concat15_apply (f : Fin 15 → ((⟨2, ![n, 1]⟩ : Shape).Idx → α))
    (h : Shape.Concatenates ((List.ofFn fun i : Fin 15 => (⟨⟨2, ![n, 1]⟩, f i⟩ : (s : Shape) × (s.Idx → α))).map (·.1))
      ⟨2, ![n, 15]⟩ 1)
    (p : Fin n) (j : Fin 15) :
    concatenate ⟨2, ![n, 15]⟩ 1 (List.ofFn fun i : Fin 15 => (⟨⟨2, ![n, 1]⟩, f i⟩ : (s : Shape) × (s.Idx → α))) h (ix2 p j)
      = f j (ix2 p (0 : Fin 1)) :=
  concatenate_ofFn_unit_apply (t := ⟨2, ![n, 15]⟩) (s₁ := ⟨2, ![n, 1]⟩) 1 f h rfl rfl (ix2 p j) j rfl (ix2 p (0 : Fin 1))
    (fun b hb => by
      match b with
      | ⟨0, _⟩ => rfl
      | ⟨1, _⟩ => exact absurd rfl hb)

end Idealize.ShloMosaic.Rows

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.BodyEntry.lean ====
/-
  The body's arithmetic at one entry of the block, on the extended reals.

  For a strip `a` of 400 adjacency rows, the whole feature array `x`, the strip's own 400 feature rows `s`, and the two
  128 x 128 weight blocks `w1`, `w2`, entry (r, e) of what the body stores is the larger of zero and
    sum over k of s(r, k) * w1(k, e)  +  sum over k of n(r, k) * w2(k, e),
  where n(r, k) is the strip row against column k of the features, divided by the strip row's sum plus one.
  Each matrix product enters a zero accumulator, so it is the plain sum over the contracted axis; the row sum runs
  along the strip's second axis; the row's denominator is a column broadcast along the 128 feature columns.
-/
import proofs.«109887_g18622978196112_cont_8to1_1943_11_alg».proof.Proof.Gen.KernelIdeal.Skeleton
import proofs.«109887_g18622978196112_cont_8to1_1943_11_alg».proof.Proof.LibPlainDot
import proofs.«109887_g18622978196112_cont_8to1_1943_11_alg».proof.Proof.LibRows
import proofs.«109887_g18622978196112_cont_8to1_1943_11_alg».proof.Proof.LibColumn

noncomputable section

open scoped BigOperators

namespace Cert.KernelIdeal.Body

open Cert.KernelIdeal Cert.KernelIdeal.Gen Idealize.ShloMosaic Idealize.ShloMosaic.ValueIdx

/-- The neighbour mean of strip row r at feature column k. -/
def stripMean (a : FVec Ideal S400x10000 .f32) (x : FVec Ideal S10000x128 .f32) (r : Fin 400) (k : Fin 128) : EReal :=
  Ideal.div (∑ j : Fin 10000, a (ix2 r j) * x (ix2 j k))
    ((∑ j : Fin 10000, a (ix2 r j)) + Ideal.ofBits .f32 0x3F800000#32)

theorem pay_apply (a : FVec Ideal S400x10000 .f32) (x : FVec Ideal S10000x128 .f32) (s : FVec Ideal S400x128 .f32)
    (w1 w2 : FVec Ideal S128x128 .f32) (r : Fin 400) (e : Fin 128) :
    k0_pay1 (F := Ideal) a x s w1 w2 (ix2 r e)
      = max ((∑ k : Fin 128, s (ix2 r k) * w1 (ix2 k e)) + (∑ k : Fin 128, stripMean a x r k * w2 (ix2 k e)))
          (Ideal.ofBits .f32 0x00000000#32) := by
  unfold k0_pay1
  rw [shapeCast_self, shapeCast_self]
  refine (maximumf_apply _ _ _).trans ?_
  refine congrArg₂ max ?_ rfl
  refine (addf_apply _ _ _).trans ?_
  refine congrArg₂ (· + ·) ?_ ?_
  · exact Cert.PlainDot.matmul_zero_apply none s w1 r e
  · refine (Cert.PlainDot.matmul_zero_apply none _ w2 r e).trans ?_
    refine Finset.sum_congr rfl fun k _ => congrArg (· * w2 (ix2 k e)) ?_
    refine (divf_apply _ _ _).trans ?_
    unfold stripMean
    refine congrArg₂ Ideal.div ?_ ?_
    · exact Cert.PlainDot.matmul_zero_apply none a x r k
    · refine (Column.broadcastTo_a1_ab_apply (by decide) _ _ r k).trans ?_
      refine (addf_apply _ _ _).trans ?_
      refine congrArg₂ (· + ·) ?_ rfl
      refine (Column.shapeCast_a_a1_apply _ _ r 0).trans ?_
      exact Rows.mredAdd_row a _ _ _ _ r

end Cert.KernelIdeal.Body

end
-- ==== Proof.SageSpec.lean ====
/-
  The function both programs compute, on the extended reals.

  With x : [10000, 128] the node features, adj : [10000, 10000] the dense adjacency and W : [128, 256] the projection,
  row p of the result is the rectified projection of the row (x p | n p), where n p is the neighbour mean
  n(p, k) = (sum over j of adj(p, j) * x(j, k)) / ((sum over j of adj(p, j)) + 1).  The projection's 256 terms are
  written as two sums of 128: the self features meet the first 128 columns of W, the neighbour mean the last 128.
  A sum over 256 terms splits that way in any commutative monoid, so nothing here needs finite entries.
-/
import Idealize.ShloMosaic.PureOps.Ideal.Laws
import Idealize.ShloMosaic.Lib.ValueIdx

noncomputable section

open scoped BigOperators

namespace Cert.Sage

open Idealize.ShloMosaic Idealize.ShloMosaic.ValueIdx

/-- Column k of the first half of W's 256 columns. -/
def lo (k : Fin 128) : Fin 256 := ⟨k.val, by have := k.isLt; omega⟩
/-- Column k of the second half. -/
def hi (k : Fin 128) : Fin 256 := ⟨128 + k.val, by have := k.isLt; omega⟩

/-- A sum of 256 terms is the sum of its first 128 plus the sum of its last 128. -/
theorem sum_halves (f : Fin 256 → EReal) : ∑ k : Fin 256, f k = ∑ k : Fin 128, f (lo k) + ∑ k : Fin 128, f (hi k) := by
  refine (Fin.sum_univ_add (a := 128) (b := 128) f).trans ?_
  exact congrArg₂ (· + ·) (Finset.sum_congr rfl fun k _ => congrArg f (Fin.ext rfl))
    (Finset.sum_congr rfl fun k _ => congrArg f (Fin.ext rfl))

/-- The neighbour mean at (p, k): the adjacency row against column k of the features, over the row's sum plus one. -/
def neigh (x : (⟨2, ![10000, 128]⟩ : Shape).Idx → EReal) (adj : (⟨2, ![10000, 10000]⟩ : Shape).Idx → EReal)
    (p : Fin 10000) (k : Fin 128) : EReal :=
  Ideal.div (∑ j : Fin 10000, adj (ix2 p j) * x (ix2 j k))
    ((∑ j : Fin 10000, adj (ix2 p j)) + Ideal.ofBits .f32 0x3F800000#32)

/-- The layer's output at (p, e). -/
def out (x : (⟨2, ![10000, 128]⟩ : Shape).Idx → EReal) (adj : (⟨2, ![10000, 10000]⟩ : Shape).Idx → EReal)
    (W : (⟨2, ![128, 256]⟩ : Shape).Idx → EReal) (p : Fin 10000) (e : Fin 128) : EReal :=
  max ((∑ k : Fin 128, x (ix2 p k) * W (ix2 e (lo k))) + (∑ k : Fin 128, neigh x adj p k * W (ix2 e (hi k))))
    (Ideal.ofBits .f32 0x00000000#32)

/-- The whole output array. -/
def sage (x : (⟨2, ![10000, 128]⟩ : Shape).Idx → EReal) (adj : (⟨2, ![10000, 10000]⟩ : Shape).Idx → EReal)
    (W : (⟨2, ![128, 256]⟩ : Shape).Idx → EReal) : (⟨2, ![10000, 128]⟩ : Shape).Idx → EReal :=
  fun i => out x adj W (i 0) (i 1)

theorem sage_apply (x : (⟨2, ![10000, 128]⟩ : Shape).Idx → EReal) (adj : (⟨2, ![10000, 10000]⟩ : Shape).Idx → EReal)
    (W : (⟨2, ![128, 256]⟩ : Shape).Idx → EReal) (p : Fin 10000) (e : Fin 128) :
    sage x adj W (ix2 p e) = out x adj W p e := rfl

end Cert.Sage

end
-- ==== Proof.BlockLaw.lean ====
/-
  One entry of a stored block is one entry of the layer function.

  Take a strip `a` whose row r is row p of the adjacency, strip feature rows `s` whose row r is row p of the features,
  and weight blocks with w1(k, e) = W(e, k) and w2(k, e) = W(e, 128 + k).  Then entry (r, e) of what the body stores
  is entry (p, e) of the layer function (the column is named twice below, once as the block's and once as the array's): both are the same expression in the adjacency row, the features and row e of W.
-/
import proofs.«109887_g18622978196112_cont_8to1_1943_11_alg».proof.Proof.BodyEntry
import proofs.«109887_g18622978196112_cont_8to1_1943_11_alg».proof.Proof.SageSpec

noncomputable section

open scoped BigOperators

namespace Cert.KernelIdeal.Body

open Cert.KernelIdeal Cert.KernelIdeal.Gen Idealize.ShloMosaic Idealize.ShloMosaic.ValueIdx Cert.Sage

theorem entry_eq (A : FVec Ideal S10000x10000 .f32) (X : FVec Ideal S10000x128 .f32) (Wt : FVec Ideal S128x256 .f32)
    (a : FVec Ideal S400x10000 .f32) (s : FVec Ideal S400x128 .f32) (w1 w2 : FVec Ideal S128x128 .f32)
    (p : Fin 10000) (r : Fin 400) (e e' : Fin 128)
    (ha : ∀ j : Fin 10000, a (ix2 r j) = A (ix2 p j))
    (hs : ∀ k : Fin 128, s (ix2 r k) = X (ix2 p k))
    (hw1 : ∀ k : Fin 128, w1 (ix2 k e) = Wt (ix2 e' (lo k)))
    (hw2 : ∀ k : Fin 128, w2 (ix2 k e) = Wt (ix2 e' (hi k))) :
    k0_pay1 (F := Ideal) a X s w1 w2 (ix2 r e) = sage X A Wt (ix2 p e') := by
  rw [pay_apply, sage_apply]
  unfold out stripMean neigh
  simp only [ha, hs, hw1, hw2]

/-- The same, at any index `y` of the block and any index `i` of the array. -/
theorem entry_eq_idx (A : FVec Ideal S10000x10000 .f32) (X : FVec Ideal S10000x128 .f32) (Wt : FVec Ideal S128x256 .f32)
    (a : FVec Ideal S400x10000 .f32) (x : FVec Ideal S10000x128 .f32) (s : FVec Ideal S400x128 .f32)
    (w1 w2 : FVec Ideal S128x128 .f32) (y : S400x128.Idx) (i : S10000x128.Idx) (hx : x = X)
    (ha : ∀ j : Fin 10000, a (ix2 (y 0) j) = A (ix2 (i 0) j))
    (hs : ∀ k : Fin 128, s (ix2 (y 0) k) = X (ix2 (i 0) k))
    (hw1 : ∀ k : Fin 128, w1 (ix2 k (y 1)) = Wt (ix2 (i 1) (lo k)))
    (hw2 : ∀ k : Fin 128, w2 (ix2 k (y 1)) = Wt (ix2 (i 1) (hi k))) :
    k0_pay1 (F := Ideal) a x s w1 w2 y = sage X A Wt i := by
  subst hx
  refine (congrArg (k0_pay1 (F := Ideal) a x s w1 w2) (eq_ix2 y)).trans ?_
  refine Eq.trans ?_ (congrArg (sage x A Wt) (eq_ix2 i)).symm
  exact entry_eq A x Wt a s w1 w2 (i 0) (y 0) (y 1) (i 1) ha hs hw1 hw2

end Cert.KernelIdeal.Body

end
-- ==== Proof.Blocks.lean ====
/-
  From the stored blocks to the whole result array.

  Grid point t stages rows 400 t .. 400 t + 399 of the adjacency, the whole feature array, and the two transposed halves of
  W: the first weight block is W's columns 0..127 transposed, the second its columns 128..255 transposed.  The body reads
  its own 400 feature rows at row offset 400 t.  So what point t writes back is rows 400 t .. 400 t + 399 of the layer
  function, and the 25 blocks tile the 10000 rows: the result array is the layer function.
-/
import proofs.«109887_g18622978196112_cont_8to1_1943_11_alg».proof.Proof.Gen.KernelIdeal.Value
import proofs.«109887_g18622978196112_cont_8to1_1943_11_alg».proof.Proof.BodyValue
import proofs.«109887_g18622978196112_cont_8to1_1943_11_alg».proof.Proof.BlockLaw
import Idealize.ShloMosaic.Lib.Pipeline.Value
import Idealize.ShloMosaic.Lib.ValueLayout
import Idealize.ShloMosaic.Lib.StableHlo.Run

noncomputable section

open scoped BigOperators

namespace Cert.KernelIdeal.Layer

open Cert.KernelIdeal Cert.KernelIdeal.Gen Cert.KernelIdeal.Body
open Idealize.ShloMosaic Idealize.ShloMosaic.TcCoe Idealize.ShloMosaic.ValueIdx Idealize.SL.Sem Cert.Sage
open Idealize.ShloMosaic.Pipeline (Dat)

variable (m : (ℓ : Loc nD τ sig) → Buf (Elt Ideal) ℓ) (ρ : Dev nD → PrngReg)

/-- The three argument arrays on core c. -/
abbrev feat (c : Dev nD) : FVec Ideal S10000x128 .f32 := m ((c : Thread nD τ).loc main_arg0)
abbrev adjc (c : Dev nD) : FVec Ideal S10000x10000 .f32 := m ((c : Thread nD τ).loc main_arg1)
abbrev wgt (c : Dev nD) : FVec Ideal S128x256 .f32 := m ((c : Thread nD τ).loc main_arg2)

/-- The printed index maps over the 25 grid points: the adjacency strip and the output block sit at block row t, every
    other window at block (0, 0), and the body's own feature rows start at row 400 t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0 :=
  (by decide +kernel : ∀ t : Fin grid0.N, _)

/-- The first weight window's array: W's first 128 columns, transposed. -/
theorem w1_arr (c : Dev nD) : (V m c main_call0_v1 : S128x128.Idx → EReal)
    = transpose S128x128 [1, 0] (extractStridedSlice S128x128 ![0, 0] (wgt m c) slices_S128x256_S128x128_0_0)
        transposes_S128x128_S128x128_1_0 := by
  dsimp only [V, hostOps0]; after_results; rfl

/-- The second weight window's array: W's last 128 columns, transposed. -/
theorem w2_arr (c : Dev nD) : (V m c main_call0_v3 : S128x128.Idx → EReal)
    = transpose S128x128 [1, 0] (extractStridedSlice S128x128 ![0, 128] (wgt m c) slices_S128x256_S128x128_0_128)
        transposes_S128x128_S128x128_1_0 := by
  dsimp only [V, hostOps0]; after_results; rfl

/-- The adjacency strip at point t, row r, is row 400 t + r of the adjacency. -/
theorem strip_apply (c : Dev nD) (t : Fin cfg0.N) (r : Fin 400) (j : Fin 10000) (p : Fin 10000)
    (hp : p.val = 400 * t.val + r.val) :
    (iblk m c 0 t : Vec Ideal S400x10000 .f32) (ix2 r j) = adjc m c (ix2 p j) := by
  obtain ⟨e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t (0 : Fin 2) * 400 + 1 * r.val = p.val; omega
  | ⟨1, _⟩ => show win0_0.index t (1 : Fin 2) * 10000 + 1 * j.val = j.val; omega

/-- The staged feature array is the feature array. -/
theorem feat_blk (c : Dev nD) (t : Fin cfg0.N) : (iblk m c 1 t : Vec Ideal S10000x128 .f32) = feat m c := by
  obtain ⟨-, -, e0, e1, -⟩ := idx_facts t
  funext y
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The body's own feature rows at point t, row r, are row 400 t + r of the features. -/
theorem self_apply (c : Dev nD) (t : Fin cfg0.N) (x : FVec Ideal S10000x128 .f32) (hx : x = feat m c)
    (r : Fin 400) (k : Fin 128) (p : Fin 10000) (hp : p.val = 400 * t.val + r.val) :
    selfRows (F := Ideal) (grid0.coords t) x (ix2 r k) = feat m c (ix2 p k) := by
  subst hx
  obtain ⟨-, -, -, -, -, -, -, -, -, -, e0, e1⟩ := idx_facts t
  refine congrArg (feat m c) (funext fun a => Fin.ext ?_)
  match a with
  | ⟨0, _⟩ => show k0_off1 (grid0.coords t) (0 : Fin 2) + 1 * r.val = p.val; omega
  | ⟨1, _⟩ => show k0_off1 (grid0.coords t) (1 : Fin 2) + 1 * k.val = k.val; omega

/-- The first weight block at (k, e) is W at (e, k). -/
theorem w1_apply (c : Dev nD) (t : Fin cfg0.N) (k e : Fin 128) :
    (iblk m c 2 t : Vec Ideal S128x128 .f32) (ix2 k e) = wgt m c (ix2 e (lo k)) := by
  obtain ⟨-, -, -, -, e0, e1, -⟩ := idx_facts t
  unfold iblk
  rw [View.read_apply]
  show V m c main_call0_v1 _ = _
  have hi : ((cfg0.win 2).blk t).view.emb (ix2 k e) = ix2 k e := funext fun a => Fin.ext (by
    match a with
    | ⟨0, _⟩ => show win0_2.index t (0 : Fin 2) * 128 + 1 * k.val = k.val; omega
    | ⟨1, _⟩ => show win0_2.index t (1 : Fin 2) * 128 + 1 * e.val = e.val; omega)
  rw [hi, w1_arr, transpose_ix2_apply]
  exact extractStridedSlice_apply _ _ _ _ _ fun a => by
    match a with
    | ⟨0, _⟩ => show e.val = 0 + e.val; omega
    | ⟨1, _⟩ => show k.val = 0 + k.val; omega

/-- The second weight block at (k, e) is W at (e, 128 + k). -/
theorem w2_apply (c : Dev nD) (t : Fin cfg0.N) (k e : Fin 128) :
    (iblk m c 3 t : Vec Ideal S128x128 .f32) (ix2 k e) = wgt m c (ix2 e (hi k)) := by
  obtain ⟨-, -, -, -, -, -, e0, e1, -⟩ := idx_facts t
  unfold iblk
  rw [View.read_apply]
  show V m c main_call0_v3 _ = _
  have hi : ((cfg0.win 3).blk t).view.emb (ix2 k e) = ix2 k e := funext fun a => Fin.ext (by
    match a with
    | ⟨0, _⟩ => show win0_3.index t (0 : Fin 2) * 128 + 1 * k.val = k.val; omega
    | ⟨1, _⟩ => show win0_3.index t (1 : Fin 2) * 128 + 1 * e.val = e.val; omega)
  rw [hi, w2_arr, transpose_ix2_apply]
  exact extractStridedSlice_apply _ _ _ _ _ fun a => by
    match a with
    | ⟨0, _⟩ => show e.val = 0 + e.val; omega
    | ⟨1, _⟩ => show 128 + k.val = 128 + k.val; rfl

/-- Entry y of what the body stores at point t is entry i of the layer function, when i is y moved down 400 t rows. -/
theorem stored_entry (c : Dev nD) (t : Fin cfg0.N) (y : S400x128.Idx) (i : S10000x128.Idx)
    (hi0 : (i 0).val = 400 * t.val + (y 0).val) (hi1 : (i 1).val = (y 1).val) :
    k0_pay1 (F := Ideal) (iblk m c 0 t) (iblk m c 1 t) (selfRows (grid0.coords t) (iblk m c 1 t)) (iblk m c 2 t) (iblk m c 3 t) y
      = sage (feat m c) (adjc m c) (wgt m c) i := by
  have he : (y 1 : Fin 128) = i 1 := Fin.ext hi1.symm
  refine entry_eq_idx (adjc m c) (feat m c) (wgt m c) (iblk m c 0 t) (iblk m c 1 t) (selfRows (grid0.coords t) (iblk m c 1 t))
    (iblk m c 2 t) (iblk m c 3 t) y i (feat_blk m c t)
    (fun j => strip_apply m c t (y 0) j (i 0) hi0)
    (fun k => self_apply m c t (iblk m c 1 t) (feat_blk m c t) (y 0) k (i 0) hi0) (fun k => ?_) (fun k => ?_)
  · exact (w1_apply m c t k (y 1)).trans (congrArg (fun z : Fin 128 => wgt m c (ix2 z (lo k))) he)
  · exact (w2_apply m c t k (y 1)).trans (congrArg (fun z : Fin 128 => wgt m c (ix2 z (hi k))) he)

/-- What point t writes back is block t of the layer function of the three arguments. -/
theorem flushed_eq (c : Dev nD) (t : Fin cfg0.N) :
    (dats m 0 c).flushed 4 t
      = ((cfg0.win 4).blk t).view.read (Elt Ideal) (sage (feat m c) (adjc m c) (wgt m c)) := by
  obtain ⟨-, -, -, -, -, -, -, -, e0, e1, -⟩ := idx_facts t
  rw [Value.flushed4_A, Body.out_eq]
  funext y
  show k0_pay1 (F := Ideal) (iblk m c 0 t) (iblk m c 1 t) (selfRows (grid0.coords t) (iblk m c 1 t)) (iblk m c 2 t) (iblk m c 3 t) y
    = sage (feat m c) (adjc m c) (wgt m c) (((cfg0.win 4).blk t).view.emb y)
  refine stored_entry m c t y (((cfg0.win 4).blk t).view.emb y) ?_ ?_
  · show win0_4.index t (0 : Fin 2) * 400 + 1 * (y 0).val = _; omega
  · show win0_4.index t (1 : Fin 2) * 128 + 1 * (y 1).val = _; omega

/-- An index of the result array is in point t's block iff its row is among the block's 400 rows. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Row p lies in the block of point p / 400. -/
theorem cover (i : S10000x128.Idx) : ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  refine ⟨⟨(i 0).val / 400, by omega⟩, flush0_4 _, ?_⟩
  obtain ⟨-, -, -, -, -, -, -, -, e0, e1, -⟩ := idx_facts ⟨(i 0).val / 400, by omega⟩
  rw [mem_blk]
  intro a
  match a with
  | ⟨0, _⟩ =>
    show win0_4.index ⟨(i 0).val / 400, _⟩ (0 : Fin 2) * 400 ≤ (i 0).val ∧ (i 0).val < win0_4.index ⟨(i 0).val / 400, _⟩ (0 : Fin 2) * 400 + 400
    rw [e0]; dsimp only; omega
  | ⟨1, _⟩ =>
    show win0_4.index ⟨(i 0).val / 400, _⟩ (1 : Fin 2) * 128 ≤ (i 1).val ∧ (i 1).val < win0_4.index ⟨(i 0).val / 400, _⟩ (1 : Fin 2) * 128 + 128
    rw [e1]; omega

/-- After the run the result array is the layer function of the three arguments. -/
theorem final (c : Dev nD) : (dats m 0 c).arrAt 4 cfg0.N = sage (feat m c) (adjc m c) (wgt m c) :=
  (dats m 0 c).arrAt_eq_of_cover 4 (sage (feat m c) (adjc m c) (wgt m c)) (fun t _ => flushed_eq m c t) cover

/-- The kernel's run, read: the result at the layer function, the arguments unchanged. -/
theorem run : θ_run defs (onTc (τ := τ) (main (F := Ideal))) ⟨m, fun _ => 0, ρ⟩ fun r => ∀ c : Dev nD,
      r.2.mem ((c : Thread nD τ).loc main_v0) = sage (feat m c) (adjc m c) (wgt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Layer

end
-- ==== Proof.RefLayer.lean ====
/-
  The reference computes the layer function.

  Read index by index, the reference's last value is the larger of zero and the 256-term product of the row
  (x p | n p) with row e of W.  The first 128 columns of the joined row are the features, the last 128 the neighbour
  mean, so the 256-term sum is the two 128-term sums of the layer function.  The neighbour mean's denominator is the
  host's row sum, which starts from a zero initial value.
-/
import proofs.«109887_g18622978196112_cont_8to1_1943_11_alg».proof.Proof.Gen.ReferenceIdeal.Read
import proofs.«109887_g18622978196112_cont_8to1_1943_11_alg».proof.Proof.SageSpec

noncomputable section

open scoped BigOperators

namespace Cert.ReferenceIdeal.Layer

open Cert.ReferenceIdeal Cert.ReferenceIdeal.Gen Cert.ReferenceIdeal.Read Idealize.ShloMosaic Idealize.ShloMosaic.ValueIdx
open Cert.Sage

variable (x : (⟨S10000x128, .f32⟩ : BufTy).Contents (Elt Ideal)) (adj : (⟨S10000x10000, .f32⟩ : BufTy).Contents (Elt Ideal))
  (W : (⟨S128x256, .f32⟩ : BufTy).Contents (Elt Ideal))

/-- The quotient stage at (p, k) is the neighbour mean. -/
theorem quotient_apply (p : Fin 10000) (k : Fin 128) : val_main_v6 (F := Ideal) x adj (ix2 p k) = neigh x adj p k := by
  rw [val_main_v6_apply, val_main_v2_apply, val_main_v5_apply, val_main_v4_apply, val_main_v1_apply, val_main_v0_apply,
    val_main_v3_apply, val_main_cst_0_apply, val_main_cst_apply]
  unfold neigh
  simp only [Ideal.hostDivf_def, Ideal.addf_def, Ideal.ofBits_def, Ideal.ofBits_zero_f32, zero_add]
  refine congrArg₂ Ideal.div (Finset.sum_congr rfl fun j _ => congrArg₂ (· * ·) (congrArg adj ?_) (congrArg x ?_))
    (congrArg (· + _) (Finset.sum_congr rfl fun j _ => congrArg adj ?_))
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl | ⟨1, _⟩ => rfl)

/-- The joined row at one of its first 128 columns is the feature row. -/
theorem joined_lo (p : Fin 10000) (k : Fin 128) : val_main_v7 (F := Ideal) x adj (ix2 p (lo k)) = x (ix2 p k) := by
  unfold val_main_v7
  exact concatenate_pair_apply_left (1 : Fin 2) x (val_main_v6 (F := Ideal) x adj) _ (ix2 p (lo k)) rfl (ix2 p k)
    (fun b => by match b with | ⟨0, _⟩ => rfl | ⟨1, _⟩ => rfl)

/-- The joined row at one of its last 128 columns is the neighbour mean. -/
theorem joined_hi (p : Fin 10000) (k : Fin 128) : val_main_v7 (F := Ideal) x adj (ix2 p (hi k)) = neigh x adj p k := by
  unfold val_main_v7
  refine (concatenate_pair_apply_right (1 : Fin 2) x (val_main_v6 (F := Ideal) x adj) _ (ix2 p (hi k)) rfl rfl (ix2 p k)
    (fun b hb => by
      match b with
      | ⟨0, _⟩ => rfl
      | ⟨1, _⟩ => exact absurd rfl hb)
    (by show k.val + 128 = 128 + k.val; omega)).trans ?_
  exact quotient_apply x adj p k

/-- The reference's result array is the layer function of its three arguments. -/
theorem result_eq : val_main_v10 (F := Ideal) x adj W = sage x adj W := by
  funext i
  obtain ⟨p, e, rfl⟩ : ∃ (p : Fin 10000) (e : Fin 128), i = ix2 p e := ⟨i 0, i 1, eq_ix2 i⟩
  rw [sage_apply, val_main_v10_apply, val_main_v9_apply, sum_halves, val_main_call0_v0_apply, val_main_call0_cst_apply]
  unfold out
  simp only [Ideal.maximumf_def, Ideal.ofBits_def]
  refine congrArg (max · _) (congrArg₂ (· + ·) (Finset.sum_congr rfl fun k _ => ?_) (Finset.sum_congr rfl fun k _ => ?_))
  · rw [val_main_v8_apply]
    refine congrArg₂ (· * ·) ((congrArg (val_main_v7 (F := Ideal) x adj) ?_).trans (joined_lo x adj p k)) (congrArg W ?_)
    · exact funext fun a => Fin.ext (by match a with | ⟨0, _⟩ => rfl | ⟨1, _⟩ => rfl)
    · exact funext fun a => Fin.ext (by match a with | ⟨0, _⟩ => rfl | ⟨1, _⟩ => rfl)
  · rw [val_main_v8_apply]
    refine congrArg₂ (· * ·) ((congrArg (val_main_v7 (F := Ideal) x adj) ?_).trans (joined_hi x adj p k)) (congrArg W ?_)
    · exact funext fun a => Fin.ext (by match a with | ⟨0, _⟩ => rfl | ⟨1, _⟩ => rfl)
    · exact funext fun a => Fin.ext (by match a with | ⟨0, _⟩ => rfl | ⟨1, _⟩ => rfl)

end Cert.ReferenceIdeal.Layer

end
-- ==== Proof.lean ====
/-
  A graph-convolution layer with mean aggregation, computed two ways.

  With x : [10000, 128] the node features, adj : [10000, 10000] a dense adjacency and W : [128, 256] the weights, row p of
  the result is max(0, (x p | n p) · Wᵀ), where n(p, k) = (Σ_j adj(p, j) x(j, k)) / (Σ_j adj(p, j) + 1) is the neighbour mean.

  The kernel works on strips of 400 adjacency rows: per strip it forms the strip's product with x and the strip's row
  sums in one pass, divides, and adds the two 128-column projections  x_strip · W[:, :128]ᵀ + n_strip · W[:, 128:]ᵀ  before
  the rectification.  The reference joins (x | n) into a [10000, 256] array and multiplies by Wᵀ once.

  On the extended reals the two agree entry by entry: a sum of 256 products is the sum of its first 128 plus the sum of
  its last 128 (commutativity and associativity of addition only, so no entry needs to be finite), each matrix product
  into a zero accumulator is the plain sum over the contracted axis, the host's row sum starts from zero, and the strips
  tile the 10000 rows.  The modules: SageSpec (the layer function and the split of the 256-term sum), BodyValue (what the
  body stores), BodyEntry (its arithmetic at one entry), BlockLaw (a stored entry is an entry of the layer function),
  Blocks (the 25 blocks make up the result array), RefLayer (the reference computes the layer function).
-/
import proofs.«109887_g18622978196112_cont_8to1_1943_11_alg».proof.Defs
import proofs.«109887_g18622978196112_cont_8to1_1943_11_alg».proof.Proof.Gen.Kernel
import proofs.«109887_g18622978196112_cont_8to1_1943_11_alg».proof.Proof.Gen.Kernel.Skeleton
import proofs.«109887_g18622978196112_cont_8to1_1943_11_alg».proof.Proof.Gen.Kernel.Launch
import proofs.«109887_g18622978196112_cont_8to1_1943_11_alg».proof.Proof.Gen.Kernel.Points
import proofs.«109887_g18622978196112_cont_8to1_1943_11_alg».proof.Proof.Gen.Kernel.Frame
import proofs.«109887_g18622978196112_cont_8to1_1943_11_alg».proof.Proof.Gen.KernelIdeal
import proofs.«109887_g18622978196112_cont_8to1_1943_11_alg».proof.Proof.Gen.KernelIdeal.Skeleton
import proofs.«109887_g18622978196112_cont_8to1_1943_11_alg».proof.Proof.Gen.KernelIdeal.Launch
import proofs.«109887_g18622978196112_cont_8to1_1943_11_alg».proof.Proof.Gen.KernelIdeal.Points
import proofs.«109887_g18622978196112_cont_8to1_1943_11_alg».proof.Proof.Gen.KernelIdeal.Frame
import proofs.«109887_g18622978196112_cont_8to1_1943_11_alg».proof.Proof.Gen.ReferenceIdeal
import proofs.«109887_g18622978196112_cont_8to1_1943_11_alg».proof.Proof.Gen.Pre_finite_inputs
import proofs.«109887_g18622978196112_cont_8to1_1943_11_alg».proof.Proof.Gen.KernelIdeal.Value
import proofs.«109887_g18622978196112_cont_8to1_1943_11_alg».proof.Proof.Gen.ReferenceIdeal.Run
import proofs.«109887_g18622978196112_cont_8to1_1943_11_alg».proof.Proof.Gen.ReferenceIdeal.Read
import proofs.«109887_g18622978196112_cont_8to1_1943_11_alg».proof.Proof.Blocks
import proofs.«109887_g18622978196112_cont_8to1_1943_11_alg».proof.Proof.RefLayer
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer function of the three arguments in their result array. -/
theorem algebraic : Cert.algebraic_KernelIdeal_ReferenceIdeal := by
  intro m ρ m' ρ' _ hagree
  refine ⟨fun c => Cert.Sage.sage (Cert.KernelIdeal.Layer.feat m c) (Cert.KernelIdeal.Layer.adjc m c) (Cert.KernelIdeal.Layer.wgt m c),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Layer.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
